-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x128 : Shape := ⟨3, ![8, 4096, 128]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel

variable [Facts]

def fn {F : FTy → Type} [FloatOps F] (main_arg0 : FVec F S8x4096x128 .f32) (main_arg1 : FVec F S8x4096x128 .f32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S8x4096x128 .f32 := Host.absf main_arg1
  let main_cst_0 : FVec F S_ .f32 := constant S_ .f32 0x7F800000#32
  let main_v5 : FVec F S8x4096x128 .f32 := broadcastInDim S8x4096x128 ![] bcast_S_S8x4096x128 main_cst_0
  let main_v6 : IVec S8x4096x128 1 := cmpf .olt main_v4 main_v5
  let main_c_1 : IVec S_ 1 := constantI S_ 1 1#1
  let main_v7 : IVec S_ 1 := (fun x v => Host.reduce IntOp.andi x v reducesTo_S8x4096x128_S_d0_1_2 h_S_) main_v6 main_c_1
  let main_v8 : IVec S_ 1 := andi main_v3 main_v7
  main_v8
-- ==== Kernel.lean ====
abbrev S8x4096x128 : Shape := ⟨3, ![8, 4096, 128]⟩
abbrev S8x4096x4096 : Shape := ⟨3, ![8, 4096, 4096]⟩
abbrev S1x1024x128 : Shape := ⟨3, ![1, 1024, 128]⟩
abbrev S1x1024x1024 : Shape := ⟨3, ![1, 1024, 1024]⟩
abbrev S1024x128 : Shape := ⟨2, ![1024, 128]⟩
abbrev S128x1024 : Shape := ⟨2, ![128, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S8x4096x4096, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x1024, .f32⟩
  | .local _ .vmem, ⟨5, _⟩ => ⟨S1x1024x1024, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  bitsLt_bf16_f32 : FTy.bits .bf16 < FTy.bits .f32
  transposes_S1024x128_p1_0_S128x1024 : S1024x128.Transposes [1, 0] S128x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S8x4096x128.size a
  hwx0_0 : ∀ i : grid0.Coords, EltTy.bits .f32 = 32 ∨ (Rect.block (s := S8x4096x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S8x4096x128.size a
  hwx0_1 : ∀ i : grid0.Coords, EltTy.bits .f32 = 32 ∨ (Rect.block (s := S8x4096x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x4096x4096.size a
  hwx0_2 : ∀ i : grid0.Coords, EltTy.bits .f32 = 32 ∨ (Rect.block (s := S8x4096x4096) S1x1024x1024.size (cc0_transform_2 i) (hinb0_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x128 : Shape := ⟨3, ![8, 4096, 128]⟩
abbrev S8x4096x4096 : Shape := ⟨3, ![8, 4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S8x4096x4096, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8x4096x128_S8x4096x128_S8x4096x4096_2_2_1_1_0_0_wf : DotDims.WF S8x4096x128 S8x4096x128 S8x4096x4096 [2] [2] [1] [1] [0] [0]

variable [Facts₀]

def dot_S8x4096x128_S8x4096x128_S8x4096x4096_2_2_1_1_0_0 : DotDims S8x4096x128 S8x4096x128 S8x4096x4096 where
  lhsContracting := [2]
  rhsContracting := [2]
  lhsNonContracting := [1]
  rhsNonContracting := [1]
  lhsBatch := [0]
  rhsBatch := [0]
  wf := dot_S8x4096x128_S8x4096x128_S8x4096x4096_2_2_1_1_0_0_wf

class Facts : Prop extends Facts₀ where

variable [Facts]
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.BlockProduct.lean ====
/-
  What the kernel body computes for one grid point, entry by entry.

  The body loads a [1, 1024, 128] block of activations and a [1, 1024, 128] block of weights, views each as a
  1024 x 128 matrix, narrows both to bf16 (at the exact instance a change of format is the identity), transposes the
  weight matrix, and multiplies into a zero accumulator.  The stored [1, 1024, 1024] block therefore holds at
  (0, p, q) the inner product of activation row p with weight row q over the 128 features.
-/
import proofs.«133445_j63161789055646_1_alg».proof.Proof.Gen.KernelIdeal.Skeleton
import proofs.«133445_j63161789055646_1_alg».proof.Proof.LibPlainDot
import Idealize.ShloMosaic.Lib.Pipeline.Value
import Idealize.ShloMosaic.Lib.ValueIdx

noncomputable section

open scoped BigOperators

namespace Cert.KernelIdeal.BlockProduct

open Cert.KernelIdeal Cert.KernelIdeal.Gen Idealize.ShloMosaic Idealize.ShloMosaic.ValueIdx

/-- The body's product contracts the second axis of its left operand with the first axis of its right operand. -/
theorem dot_plain :
    PlainDot.IsPlain (M := 1024) (K := 128) (N := 1024) dot_S1024x128_S128x1024_S1024x1024_1_0_0_1_n_n :=
  ⟨rfl, rfl, rfl, rfl, rfl, rfl⟩

/-- A [1, 1024, 128] block viewed as a 1024 x 128 matrix: entry (p, i) is the block's entry (0, p, i). -/
theorem matrix_of_block (x : Vec Ideal S1x1024x128 .f32) (p : Fin 1024) (i : Fin 128) :
    shapeCast S1024x128 x shapeCasts_S1x1024x128_S1024x128 (ix2 p i) = x (ix3 (0 : Fin 1) p i) := by
  refine shapeCast_apply _ _ (ix2 p i) (ix3 (0 : Fin 1) p i) ?_
  rw [Shape.rowMajor_val_two, Shape.rowMajor_val_three]
  show ((0 : ℕ) * 1024 + p.val) * 128 + i.val = p.val * 128 + i.val
  omega

/-- ENTRY (0, p, q) OF THE STORED BLOCK: the inner product of row p of the activation block with row q of the
    weight block. -/
theorem block_entry (x0 x1 : Vec Ideal S1x1024x128 .f32) (p q : Fin 1024) :
    k0_pay1 (F := Ideal) x0 x1 (ix3 (0 : Fin 1) p q)
      = ∑ i : Fin 128, x0 (ix3 (0 : Fin 1) p i) * x1 (ix3 (0 : Fin 1) q i) := by
  unfold k0_pay1
  refine (shapeCast_apply _ _ (ix3 (0 : Fin 1) p q) (ix2 p q) ?_).trans ?_
  · rw [Shape.rowMajor_val_two, Shape.rowMajor_val_three]
    show p.val * 1024 + q.val = ((0 : ℕ) * 1024 + p.val) * 1024 + q.val
    omega
  refine (PlainDot.matmul_zero_apply dot_plain none _ _ p q).trans ?_
  refine Finset.sum_congr rfl fun i _ => ?_
  refine congrArg₂ (· * ·) ?_ ?_
  · exact matrix_of_block x0 p i
  · refine (transpose_apply [1, 0] _ _ (ix2 i q) (ix2 q i) ?_).trans ?_
    · intro b
      match b with
      | ⟨0, _⟩ => rfl
      | ⟨1, _⟩ => rfl
    exact matrix_of_block x1 q i

end Cert.KernelIdeal.BlockProduct

end
-- ==== Proof.Spec.lean ====
/-
  The mathematical content of the kernel and of its reference, as one function of the two argument arrays.

  There are 8 experts.  Expert `e` has an activation matrix `x e` of 4096 rows and 128 features and a weight
  matrix `W e` of 4096 output rows and 128 features.  The result for expert `e` is the matrix product of `x e`
  with the transpose of `W e`: entry (e, n, o) is the inner product of row n of `x e` with row o of `W e`,
  a sum of 128 products of extended reals.
-/
import Idealize.ShloMosaic.Lib.ValueIdx
import Idealize.ShloMosaic.PureOps.Ideal

noncomputable section

open scoped BigOperators

namespace ExpertProduct

open Idealize.ShloMosaic Idealize.ShloMosaic.ValueIdx

/-- Entry (e, n, o) of the grouped product: the sum over the 128 features `r` of `x (e, n, r) * W (e, o, r)`. -/
def expertProduct (x W : (⟨3, ![8, 4096, 128]⟩ : Shape).Idx → EReal) : (⟨3, ![8, 4096, 4096]⟩ : Shape).Idx → EReal :=
  fun i => ∑ r : Fin 128, x (ix3 (i 0) (i 1) r) * W (ix3 (i 0) (i 2) r)

/-- The same entry with the index given by its three coordinates. -/
theorem expertProduct_ix3 (x W : (⟨3, ![8, 4096, 128]⟩ : Shape).Idx → EReal) (e : Fin 8) (n : Fin 4096) (o : Fin 4096) :
    expertProduct x W (ix3 e n o) = ∑ r : Fin 128, x (ix3 e n r) * W (ix3 e o r) := rfl

end ExpertProduct

end
-- ==== Proof.KernelValue.lean ====
/-
  The kernel's result array is the grouped product.

  The grid has a point for every (expert e, row tile a, column tile b), 8 x 4 x 4 points.  At that point the
  activation window holds rows 1024 a .. 1024 a + 1023 of expert e, the weight window rows 1024 b .. 1024 b + 1023
  of expert e, and the output window is the 1024 x 1024 tile (a, b) of expert e's result.  Entry (p, q) of the tile
  written back is the inner product of activation row 1024 a + p with weight row 1024 b + q, which is entry
  (e, 1024 a + p, 1024 b + q) of the grouped product; the 128 tiles cover the result array.
-/
import proofs.«133445_j63161789055646_1_alg».proof.Proof.Gen.KernelIdeal.Value
import proofs.«133445_j63161789055646_1_alg».proof.Proof.BlockProduct
import proofs.«133445_j63161789055646_1_alg».proof.Proof.Spec

noncomputable section

open scoped BigOperators

namespace Cert.KernelIdeal.KernelValue

open Cert.KernelIdeal Cert.KernelIdeal.Gen Idealize.ShloMosaic Idealize.ShloMosaic.TcCoe Idealize.SL.Sem
open Idealize.ShloMosaic.Pipeline (Dat)
open Idealize.ShloMosaic.ValueIdx ExpertProduct

variable (m : (ℓ : Loc nD τ sig) → Buf (Elt Ideal) ℓ) (ρ : Dev nD → PrngReg)

theorem zero_offsets : (![0, 0, 0] : Fin 3 → Nat) = fun _ => 0 := funext fun a => by fin_cases a <;> rfl

/-- How the three windows move over the grid: the activation window follows the output's expert and row tile,
    the weight window the output's expert and column tile, and neither moves along the features. -/
theorem tile_indices : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = win0_2.index t (2 : Fin 3)
    ∧ win0_1.index t (2 : Fin 3) = 0
    ∧ win0_2.index t (0 : Fin 3) ≤ 7 ∧ win0_2.index t (1 : Fin 3) ≤ 3 ∧ win0_2.index t (2 : Fin 3) ≤ 3 :=
  (by decide +kernel : ∀ t : Fin grid0.N, _)

/-- Every (expert, row tile, column tile) is some grid point's output tile. -/
theorem tile_onto : ∀ (e : Fin 8) (a : Fin 4) (b : Fin 4), ∃ t : Fin cfg0.N, win0_2.index t = ![e.val, a.val, b.val] :=
  (by decide +kernel : ∀ (e : Fin 8) (a : Fin 4) (b : Fin 4), ∃ t : Fin grid0.N, win0_2.index t = ![e.val, a.val, b.val])

/-- WHAT POINT t WRITES BACK is its tile of the grouped product of the argument arrays. -/
theorem flushed_eq (c : Dev nD) (t : Fin cfg0.N) :
    (dats m 0 c).flushed 2 t
      = ((cfg0.win 2).blk t).view.read (Elt Ideal) (expertProduct (V m c main_arg0) (V m c main_arg1)) := by
  rw [Cert.KernelIdeal.Value.flushed2]
  unfold out0_2
  rw [View.canon_unit_zero zero_offsets]
  simp only [View.ld_unit_zero (S := S1x1024x128) zero_offsets]
  obtain ⟨e0, e1, e2, e3, e4, e5, -, -, -⟩ := tile_indices t
  funext j
  obtain ⟨z, p, q, rfl⟩ : ∃ (z : Fin 1) (p : Fin 1024) (q : Fin 1024), j = ix3 z p q := ⟨j 0, j 1, j 2, eq_ix3 j⟩
  obtain rfl : z = 0 := Subsingleton.elim _ _
  show k0_pay1 (F := Ideal) (iblk m c 0 t) (iblk m c 1 t) (ix3 (0 : Fin 1) p q)
    = expertProduct (V m c main_arg0) (V m c main_arg1) (((cfg0.win 2).blk t).view.emb (ix3 (0 : Fin 1) p q))
  refine (BlockProduct.block_entry (iblk m c 0 t) (iblk m c 1 t) p q).trans ?_
  refine Finset.sum_congr rfl fun i _ => ?_
  refine congrArg₂ (· * ·) ?_ ?_
  · show V m c main_arg0 (((cfg0.win 0).blk t).view.emb (ix3 (0 : Fin 1) p i)) = V m c main_arg0 _
    refine congrArg (V m c main_arg0) (funext fun a => Fin.ext ?_)
    match a with
    | ⟨0, _⟩ => show win0_0.index t (0 : Fin 3) * 1 + 1 * 0 = win0_2.index t (0 : Fin 3) * 1 + 1 * 0; omega
    | ⟨1, _⟩ => show win0_0.index t (1 : Fin 3) * 1024 + 1 * p.val = win0_2.index t (1 : Fin 3) * 1024 + 1 * p.val; omega
    | ⟨2, _⟩ => show win0_0.index t (2 : Fin 3) * 128 + 1 * i.val = i.val; omega
  · show V m c main_arg1 (((cfg0.win 1).blk t).view.emb (ix3 (0 : Fin 1) q i)) = V m c main_arg1 _
    refine congrArg (V m c main_arg1) (funext fun a => Fin.ext ?_)
    match a with
    | ⟨0, _⟩ => show win0_1.index t (0 : Fin 3) * 1 + 1 * 0 = win0_2.index t (0 : Fin 3) * 1 + 1 * 0; omega
    | ⟨1, _⟩ => show win0_1.index t (1 : Fin 3) * 1024 + 1 * q.val = win0_2.index t (2 : Fin 3) * 1024 + 1 * q.val; omega
    | ⟨2, _⟩ => show win0_1.index t (2 : Fin 3) * 128 + 1 * i.val = i.val; omega

/-- An index of the result array lies in point t's tile iff each coordinate lies in the tile's range on its axis. -/
theorem mem_tile (t : Fin cfg0.N) (i : S8x4096x4096.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v0).slice (win0_2.rect t)).set ↔ _
  rw [View.set_slice_whole, Rect.mem_set_unit]
  exact Iff.rfl

/-- THE TILES COVER the result array: entry (e, n, o) lies in the tile (e, n / 1024, o / 1024). -/
theorem tiles_cover (i : S8x4096x4096.Idx) :
    ∃ t : Fin cfg0.N, (cfg0.win 2).flush t = true ∧ i ∈ ((cfg0.win 2).blk t).view.set := by
  have hi0 : (i 0).val < 8 := (i 0).isLt
  have hi1 : (i 1).val < 4096 := (i 1).isLt
  have hi2 : (i 2).val < 4096 := (i 2).isLt
  obtain ⟨t, ht⟩ := tile_onto ⟨(i 0).val, hi0⟩ ⟨(i 1).val / 1024, by omega⟩ ⟨(i 2).val / 1024, by omega⟩
  have q0 : win0_2.index t (0 : Fin 3) = (i 0).val := congrFun ht 0
  have q1 : win0_2.index t (1 : Fin 3) = (i 1).val / 1024 := congrFun ht 1
  have q2 : win0_2.index t (2 : Fin 3) = (i 2).val / 1024 := congrFun ht 2
  refine ⟨t, flush0_2 t, ?_⟩
  rw [mem_tile]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1024 ≤ (i 1).val ∧ (i 1).val < win0_2.index t (1 : Fin 3) * 1024 + 1024
    omega
  | ⟨2, _⟩ =>
    show win0_2.index t (2 : Fin 3) * 1024 ≤ (i 2).val ∧ (i 2).val < win0_2.index t (2 : Fin 3) * 1024 + 1024
    omega

/-- THE RESULT ARRAY after the run is the grouped product of the two argument arrays. -/
theorem final (c : Dev nD) :
    (dats m 0 c).arrAt 2 cfg0.N
      = expertProduct (m ((c : Thread nD τ).loc main_arg0)) (m ((c : Thread nD τ).loc main_arg1)) :=
  (dats m 0 c).arrAt_eq_of_cover 2 (expertProduct (V m c main_arg0) (V m c main_arg1))
    (fun t _ => flushed_eq m c t) tiles_cover

/-- Every weakly fair execution of the kernel program ends with the result array at the grouped product of the
    arguments and the arguments unchanged. -/
theorem run : θ_run defs (onTc (τ := τ) (main (F := Ideal))) ⟨m, fun _ => 0, ρ⟩ fun r => ∀ c : Dev nD,
      r.2.mem ((c : Thread nD τ).loc main_v0)
        = expertProduct (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.KernelValue

end
-- ==== Proof.RefValue.lean ====
/-
  The reference computes the grouped product.

  The reference is one batched contraction: the expert axis of both operands is a batch axis, the feature axis
  (axis 2) of both is contracted, and the remaining axis of each operand becomes a result axis.  Read at an entry
  (e, n, o) this is the sum over the features r of x (e, n, r) * W (e, o, r).
-/
import proofs.«133445_j63161789055646_1_alg».proof.Proof.Gen.ReferenceIdeal.Read
import proofs.«133445_j63161789055646_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx ExpertProduct

/-- The left operand is read at (expert, activation row, feature). -/
theorem left_index (i : S8x4096x4096.Idx) (k : Fin 128) : lidx_main_v0 i k = ix3 (i 0) (i 1) k :=
  funext fun a => Fin.ext (by
    match a with
    | ⟨0, _⟩ => rfl
    | ⟨1, _⟩ => rfl
    | ⟨2, _⟩ => rfl)

/-- The right operand is read at (expert, weight row, feature). -/
theorem right_index (i : S8x4096x4096.Idx) (k : Fin 128) : ridx_main_v0 i k = ix3 (i 0) (i 2) k :=
  funext fun a => Fin.ext (by
    match a with
    | ⟨0, _⟩ => rfl
    | ⟨1, _⟩ => rfl
    | ⟨2, _⟩ => rfl)

/-- THE REFERENCE'S RESULT is the grouped product of its two arguments. -/
theorem reference_eq (x W : (⟨S8x4096x128, .f32⟩ : BufTy).Contents (Elt Ideal)) :
    val_main_v0 (F := Ideal) x W = expertProduct x W := by
  funext i
  rw [val_main_v0_apply]
  simp only [left_index, right_index]
  rfl

end Cert.ReferenceIdeal.RefValue

end
-- ==== Proof.lean ====
/-
  Grouped matrix product: for each of 8 experts, the 4096 x 128 activation matrix times the transpose of the
  4096 x 128 weight matrix.

  The kernel tiles each expert's 4096 x 4096 result into sixteen 1024 x 1024 tiles, one grid point per tile; a point
  multiplies a block of 1024 activation rows by the transpose of a block of 1024 weight rows, both narrowed to bf16,
  accumulating in f32 from zero.  The reference is one batched contraction over the feature axis.  At the exact
  instance a change of float format is the identity and both products are plain sums, so both programs leave at
  entry (e, n, o) the sum over the 128 features r of x (e, n, r) * W (e, o, r): the same sum of the same products,
  with no rearrangement, so no finiteness of the inputs is used.

  The idealization pass rewrote nothing in the kernel, so the statement relating the kernel to its idealization has
  no content.  The three programs terminate with their arguments unchanged: the kernels by their pipelines' frame
  runs, the reference by the run of its one host operation.
-/
import proofs.«133445_j63161789055646_1_alg».proof.Defs
import proofs.«133445_j63161789055646_1_alg».proof.Proof.Gen.Kernel
import proofs.«133445_j63161789055646_1_alg».proof.Proof.Gen.Kernel.Skeleton
import proofs.«133445_j63161789055646_1_alg».proof.Proof.Gen.Kernel.Launch
import proofs.«133445_j63161789055646_1_alg».proof.Proof.Gen.Kernel.Points
import proofs.«133445_j63161789055646_1_alg».proof.Proof.Gen.Kernel.Frame
import proofs.«133445_j63161789055646_1_alg».proof.Proof.Gen.KernelIdeal
import proofs.«133445_j63161789055646_1_alg».proof.Proof.Gen.KernelIdeal.Skeleton
import proofs.«133445_j63161789055646_1_alg».proof.Proof.Gen.KernelIdeal.Launch
import proofs.«133445_j63161789055646_1_alg».proof.Proof.Gen.KernelIdeal.Points
import proofs.«133445_j63161789055646_1_alg».proof.Proof.Gen.KernelIdeal.Frame
import proofs.«133445_j63161789055646_1_alg».proof.Proof.Gen.ReferenceIdeal
import proofs.«133445_j63161789055646_1_alg».proof.Proof.Gen.KernelIdeal.Value
import proofs.«133445_j63161789055646_1_alg».proof.Proof.Gen.ReferenceIdeal.Run
import proofs.«133445_j63161789055646_1_alg».proof.Proof.Gen.ReferenceIdeal.Read
import proofs.«133445_j63161789055646_1_alg».proof.Proof.Gen.Pre_finite_inputs
import proofs.«133445_j63161789055646_1_alg».proof.Proof.KernelValue
import proofs.«133445_j63161789055646_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed terminates and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten, so there is nothing to state. -/
theorem preserves : Cert.preserves_Kernel_KernelIdeal := trivial

/-- Both programs end with the grouped product of the shared arguments in their result array. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v0_eq _ _).trans (Cert.ReferenceIdeal.RefValue.reference_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
